-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x24x2048 : Shape := ⟨3, ![128, 24, 2048]⟩
abbrev S2x32768 : Shape := ⟨2, ![2, 32768]⟩
abbrev S32768 : Shape := ⟨1, ![32768]⟩
abbrev S3072x8 : Shape := ⟨2, ![3072, 8]⟩
abbrev S8 : Shape := ⟨1, ![8]⟩
abbrev S16x32 : Shape := ⟨2, ![16, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S128x24x2048 : S_.BroadcastsInDim S128x24x2048 (![] : Fin 0 → Fin S128x24x2048.rank)
  reducesTo_S128x24x2048_S_d0_1_2 : S128x24x2048.ReducesTo [0, 1, 2] S_
  h_S_ : 0 < S_.numel
  bcast_S_S32768 : S_.BroadcastsInDim S32768 (![] : Fin 0 → Fin S32768.rank)
  reducesTo_S32768_S_d0 : S32768.ReducesTo [0] S_
  bcast_S_S3072x8 : S_.BroadcastsInDim S3072x8 (![] : Fin 0 → Fin S3072x8.rank)
  reducesTo_S3072x8_S_d0_1 : S3072x8.ReducesTo [0, 1] S_
  bcast_S_S8 : S_.BroadcastsInDim S8 (![] : Fin 0 → Fin S8.rank)
  reducesTo_S8_S_d0 : S8.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S16x32 .f32) (main_arg6 : FVec F S32 .f32) (main_arg7 : FVec F S32x1 .f32) (main_arg8 : FVec F S1 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S16x32 .f32 := Host.absf main_arg5
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x1 .f32 := Host.absf main_arg7
  let main_cst_10 : FVec F S_ .f32 := constant S_ .f32 0x7F800000#32
  let main_v30 : FVec F S32x1 .f32 := broadcastInDim S32x1 ![] bcast_S_S32x1 main_cst_10
  let main_v31 : IVec S32x1 1 := cmpf .olt main_v29 main_v30
  let main_c_11 : IVec S_ 1 := constantI S_ 1 1#1
  let main_v32 : IVec S_ 1 := (fun x v => Host.reduce IntOp.andi x v reducesTo_S32x1_S_d0_1 h_S_) main_v31 main_c_11
  let main_v33 : IVec S_ 1 := andi main_v28 main_v32
  fn_part2 (F := F) main_arg8 main_v33

def fn {F : FTy → Type} [FloatOps F] (main_arg0 : FVec F S128x24x2048 .f32) (main_arg1 : IVec S2x32768 32) (main_arg2 : FVec F S32768 .f32) (main_arg3 : FVec F S3072x8 .f32) (main_arg4 : FVec F S8 .f32) (main_arg5 : FVec F S16x32 .f32) (main_arg6 : FVec F S32 .f32) (main_arg7 : FVec F S32x1 .f32) (main_arg8 : FVec F S1 .f32) : IVec S_ 1 :=
  let main_v0 : FVec F S128x24x2048 .f32 := Host.absf main_arg0
  let main_cst : FVec F S_ .f32 := constant S_ .f32 0x7F800000#32
  let main_v1 : FVec F S128x24x2048 .f32 := broadcastInDim S128x24x2048 ![] bcast_S_S128x24x2048 main_cst
  let main_v2 : IVec S128x24x2048 1 := cmpf .olt main_v0 main_v1
  let main_c : IVec S_ 1 := constantI S_ 1 1#1
  let main_v3 : IVec S_ 1 := (fun x v => Host.reduce IntOp.andi x v reducesTo_S128x24x2048_S_d0_1_2 h_S_) main_v2 main_c
  let main_v4 : FVec F S32768 .f32 := Host.absf main_arg2
  let main_cst_0 : FVec F S_ .f32 := constant S_ .f32 0x7F800000#32
  let main_v5 : FVec F S32768 .f32 := broadcastInDim S32768 ![] bcast_S_S32768 main_cst_0
  let main_v6 : IVec S32768 1 := cmpf .olt main_v4 main_v5
  let main_c_1 : IVec S_ 1 := constantI S_ 1 1#1
  let main_v7 : IVec S_ 1 := (fun x v => Host.reduce IntOp.andi x v reducesTo_S32768_S_d0 h_S_) main_v6 main_c_1
  let main_v8 : IVec S_ 1 := andi main_v3 main_v7
  let main_v9 : FVec F S3072x8 .f32 := Host.absf main_arg3
  let main_cst_2 : FVec F S_ .f32 := constant S_ .f32 0x7F800000#32
  let main_v10 : FVec F S3072x8 .f32 := broadcastInDim S3072x8 ![] bcast_S_S3072x8 main_cst_2
  let main_v11 : IVec S3072x8 1 := cmpf .olt main_v9 main_v10
  let main_c_3 : IVec S_ 1 := constantI S_ 1 1#1
  let main_v12 : IVec S_ 1 := (fun x v => Host.reduce IntOp.andi x v reducesTo_S3072x8_S_d0_1 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg5 main_arg6 main_arg7 main_arg8 main_v13 main_v16
-- ==== Kernel.lean ====
abbrev S128x24x2048 : Shape := ⟨3, ![128, 24, 2048]⟩
abbrev S2x32768 : Shape := ⟨2, ![2, 32768]⟩
abbrev S32768 : Shape := ⟨1, ![32768]⟩
abbrev S3072x8 : Shape := ⟨2, ![3072, 8]⟩
abbrev S8 : Shape := ⟨1, ![8]⟩
abbrev S16x32 : Shape := ⟨2, ![16, 32]⟩
abbrev S32 : Shape := ⟨1, ![32]⟩
abbrev S32x1 : Shape := ⟨2, ![32, 1]⟩
abbrev S1 : Shape := ⟨1, ![1]⟩
abbrev S3072x2048 : Shape := ⟨2, ![3072, 2048]⟩
abbrev S8x1 : Shape := ⟨2, ![8, 1]⟩
abbrev S1x1 : Shape := ⟨2, ![1, 1]⟩
abbrev S3072x512 : Shape := ⟨2, ![3072, 512]⟩
abbrev S128x24x512 : Shape := ⟨3, ![128, 24, 512]⟩
abbrev S8x512 : Shape := ⟨2, ![8, 512]⟩
abbrev S16x512 : Shape := ⟨2, ![16, 512]⟩
abbrev S32x512 : Shape := ⟨2, ![32, 512]⟩
abbrev S1x512 : Shape := ⟨2, ![1, 512]⟩
abbrev S1x1x512 : Shape := ⟨3, ![1, 1, 512]⟩

abbrev nBuf : Space → Nat
  | .hbm => 14
  | .vmem => 10
  | .smem => 0
  | _ => 0

abbrev bufTy : (tb : Table) → Fin (tcTables nBuf tb) → BufTy
  | .hbm, ⟨0, _⟩ => ⟨S128x24x2048, .f32⟩
  | .hbm, ⟨1, _⟩ => ⟨S2x32768, .i32⟩
  | .hbm, ⟨2, _⟩ => ⟨S32768, .f32⟩
  | .hbm, ⟨3, _⟩ => ⟨S3072x8, .f32⟩
  | .hbm, ⟨4, _⟩ => ⟨S8, .f32⟩
  | .hbm, ⟨5, _⟩ => ⟨S16x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S3072x2048, .f32⟩
  | .hbm, ⟨10, _⟩ => ⟨S8x1, .f32⟩
  | .hbm, ⟨11, _⟩ => ⟨S32x1, .f32⟩
  | .hbm, ⟨12, _⟩ => ⟨S1x1, .f32⟩
  | .hbm, ⟨13, _⟩ => ⟨S128x24x2048, .f32⟩
  | .local _ .vmem, ⟨0, _⟩ => ⟨S3072x512, .f32⟩
  | .local _ .vmem, ⟨1, _⟩ => ⟨S3072x512, .f32⟩
  | .local _ .vmem, ⟨2, _⟩ => ⟨S3072x8, .f32⟩
  | .local _ .vmem, ⟨3, _⟩ => ⟨S8x1, .f32⟩
  | .local _ .vmem, ⟨4, _⟩ => ⟨S16x32, .f32⟩
  | .local _ .vmem, ⟨5, _⟩ => ⟨S32x1, .f32⟩
  | .local _ .vmem, ⟨6, _⟩ => ⟨S32x1, .f32⟩
  | .local _ .vmem, ⟨7, _⟩ => ⟨S1x1, .f32⟩
  | .local _ .vmem, ⟨8, _⟩ => ⟨S128x24x512, .f32⟩
  | .local _ .vmem, ⟨9, _⟩ => ⟨S128x24x512, .f32⟩
  | _, _ => ⟨S128x24x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S3072x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x24x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S128x24x2048_S3072x2048 : S128x24x2048.ShapeCasts S3072x2048
  shapeCasts_S8_S8x1 : S8.ShapeCasts S8x1
  shapeCasts_S32_S32x1 : S32.ShapeCasts S32x1
  shapeCasts_S1_S1x1 : S1.ShapeCasts S1x1
  inb_S3072x512_S3072x512_0_0 : ∀ a, (![0, 0] : Fin 2 → Nat) a + S3072x512.size a ≤ S3072x512.size a
  h_S3072x512 : 0 < S3072x512.numel
  shapeCasts_S3072x512_S3072x512 : S3072x512.ShapeCasts S3072x512
  bitsLt_bf16_f32 : FTy.bits .bf16 < FTy.bits .f32
  inb_S3072x8_S3072x8_0_0 : ∀ a, (![0, 0] : Fin 2 → Nat) a + S3072x8.size a ≤ S3072x8.size a
  h_S3072x8 : 0 < S3072x8.numel
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x512 : S8x1.Broadcasts S8x512
  concatenates_S8x512_S8x512_S16x512_d0 : Shape.Concatenates [S8x512, S8x512] S16x512 0
  inb_S16x32_S16x32_0_0 : ∀ a, (![0, 0] : Fin 2 → Nat) a + S16x32.size a ≤ S16x32.size a
  h_S16x32 : 0 < S16x32.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x512 : S32x1.Broadcasts S32x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x512 : S1x1.Broadcasts S1x512
  shapeCasts_S1x512_S1x1x512 : S1x512.ShapeCasts S1x1x512
  shapeCasts_S1x1x512_S1x1x512 : S1x1x512.ShapeCasts S1x1x512
  broadcasts_S1x1x512_S128x24x512 : S1x1x512.Broadcasts S128x24x512
  inb_S128x24x512_S128x24x512_0_0_0 : ∀ a, (![0, 0, 0] : Fin 3 → Nat) a + S128x24x512.size a ≤ S128x24x512.size a
  h_S128x24x512 : 0 < S128x24x512.numel
  dot_S3072x8_S3072x512_S8x512_0_0_1_1_n_n_wf : DotDims.WF S3072x8 S3072x512 S8x512 [0] [0] [1] [1] [] []
  dot_S16x32_S16x512_S32x512_0_0_1_1_n_n_wf : DotDims.WF S16x32 S16x512 S32x512 [0] [0] [1] [1] [] []
  dot_S32x1_S32x512_S1x512_0_0_1_1_n_n_wf : DotDims.WF S32x1 S32x512 S1x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3072x512.size a ≤ S3072x2048.size a
  hwx0_0 : ∀ i : grid0.Coords, EltTy.bits .f32 = 32 ∨ (Rect.block (s := S3072x2048) S3072x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x8.size a ≤ S3072x8.size a
  hwx0_1 : ∀ i : grid0.Coords, EltTy.bits .f32 = 32 ∨ (Rect.block (s := S3072x8) S3072x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S8x1.size a
  hwx0_2 : ∀ i : grid0.Coords, EltTy.bits .f32 = 32 ∨ (Rect.block (s := S8x1) S8x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S16x32.size a
  hwx0_3 : ∀ i : grid0.Coords, EltTy.bits .f32 = 32 ∨ (Rect.block (s := S16x32) S16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S32x1.size a
  hwx0_5 : ∀ i : grid0.Coords, EltTy.bits .f32 = 32 ∨ (Rect.block (s := S32x1) S32x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x24x512.size a ≤ S128x24x2048.size a
  hwx0_7 : ∀ i : grid0.Coords, EltTy.bits .f32 = 32 ∨ (Rect.block (s := S128x24x2048) S128x24x512.size (cc0_transform_7 i) (hinb0_7 i)).WholeWords (EltTy.packing .f32)

variable [Facts₀]

def dot_S3072x8_S3072x512_S8x512_0_0_1_1_n_n : DotDims S3072x8 S3072x512 S8x512 where
  lhsContracting := [0]
  rhsContracting := [0]
  lhsNonContracting := [1]
  rhsNonContracting := [1]
  lhsBatch := []
  rhsBatch := []
  wf := dot_S3072x8_S3072x512_S8x512_0_0_1_1_n_n_wf
def dot_S16x32_S16x512_S32x512_0_0_1_1_n_n : DotDims S16x32 S16x512 S32x512 where
  lhsContracting := [0]
  rhsContracting := [0]
  lhsNonContracting := [1]
  rhsNonContracting := [1]
  lhsBatch := []
  rhsBatch := []
  wf := dot_S16x32_S16x512_S32x512_0_0_1_1_n_n_wf
def dot_S32x1_S32x512_S1x512_0_0_1_1_n_n : DotDims S32x1 S32x512 S1x512 where
  lhsContracting := [0]
  rhsContracting := [0]
  lhsNonContracting := [1]
  rhsNonContracting := [1]
  lhsBatch := []
  rhsBatch := []
  wf := dot_S32x1_S32x512_S1x512_0_0_1_1_n_n_wf

abbrev win0_0 : Pipeline.Window sig grid0 :=
  Pipeline.Window.ofSpec (Memref.whole main_v0) S3072x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3072x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S16x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S32x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S128x24x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S128x24x2048 : Shape := ⟨3, ![128, 24, 2048]⟩
abbrev S2x32768 : Shape := ⟨2, ![2, 32768]⟩
abbrev S32768 : Shape := ⟨1, ![32768]⟩
abbrev S3072x8 : Shape := ⟨2, ![3072, 8]⟩
abbrev S8 : Shape := ⟨1, ![8]⟩
abbrev S16x32 : Shape := ⟨2, ![16, 32]⟩
abbrev S32 : Shape := ⟨1, ![32]⟩
abbrev S32x1 : Shape := ⟨2, ![32, 1]⟩
abbrev S1 : Shape := ⟨1, ![1]⟩
abbrev S3072x2048 : Shape := ⟨2, ![3072, 2048]⟩
abbrev S2048x3072 : Shape := ⟨2, ![2048, 3072]⟩
abbrev S2048x8 : Shape := ⟨2, ![2048, 8]⟩
abbrev S1x8 : Shape := ⟨2, ![1, 8]⟩
abbrev S2048x16 : Shape := ⟨2, ![2048, 16]⟩
abbrev S2048x32 : Shape := ⟨2, ![2048, 32]⟩
abbrev S1x32 : Shape := ⟨2, ![1, 32]⟩
abbrev S_ : Shape := ⟨0, ![]⟩
abbrev S2048x1 : Shape := ⟨2, ![2048, 1]⟩
abbrev S1x1 : Shape := ⟨2, ![1, 1]⟩
abbrev S2048 : Shape := ⟨1, ![2048]⟩

abbrev nBuf : Space → Nat
  | .hbm => 34
  | .vmem => 0
  | .smem => 0
  | _ => 0

abbrev bufTy : (tb : Table) → Fin (tcTables nBuf tb) → BufTy
  | .hbm, ⟨0, _⟩ => ⟨S128x24x2048, .f32⟩
  | .hbm, ⟨1, _⟩ => ⟨S2x32768, .i32⟩
  | .hbm, ⟨2, _⟩ => ⟨S32768, .f32⟩
  | .hbm, ⟨3, _⟩ => ⟨S3072x8, .f32⟩
  | .hbm, ⟨4, _⟩ => ⟨S8, .f32⟩
  | .hbm, ⟨5, _⟩ => ⟨S16x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S3072x2048, .f32⟩
  | .hbm, ⟨10, _⟩ => ⟨S2048x3072, .f32⟩
  | .hbm, ⟨11, _⟩ => ⟨S2048x8, .f32⟩
  | .hbm, ⟨12, _⟩ => ⟨S1x8, .f32⟩
  | .hbm, ⟨13, _⟩ => ⟨S2048x8, .f32⟩
  | .hbm, ⟨14, _⟩ => ⟨S2048x8, .f32⟩
  | .hbm, ⟨15, _⟩ => ⟨S2048x16, .f32⟩
  | .hbm, ⟨16, _⟩ => ⟨S2048x32, .f32⟩
  | .hbm, ⟨17, _⟩ => ⟨S1x32, .f32⟩
  | .hbm, ⟨18, _⟩ => ⟨S2048x32, .f32⟩
  | .hbm, ⟨19, _⟩ => ⟨S2048x32, .f32⟩
  | .hbm, ⟨20, _⟩ => ⟨S_, .f32⟩
  | .hbm, ⟨21, _⟩ => ⟨S_, .f32⟩
  | .hbm, ⟨22, _⟩ => ⟨S2048x32, .f32⟩
  | .hbm, ⟨23, _⟩ => ⟨S2048x32, .i1⟩
  | .hbm, ⟨24, _⟩ => ⟨S_, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x1, .f32⟩
  | .hbm, ⟨29, _⟩ => ⟨S1x1, .f32⟩
  | .hbm, ⟨30, _⟩ => ⟨S2048x1, .f32⟩
  | .hbm, ⟨31, _⟩ => ⟨S2048x1, .f32⟩
  | .hbm, ⟨32, _⟩ => ⟨S2048, .f32⟩
  | .hbm, ⟨33, _⟩ => ⟨S128x24x2048, .f32⟩
  | _, _ => ⟨S128x24x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]

class Facts₀ : Prop where
  shapeCasts_S128x24x2048_S3072x2048 : S128x24x2048.ShapeCasts S3072x2048
  transposes_S3072x2048_S2048x3072_1_0 : S3072x2048.Transposes [1, 0] S2048x3072
  bcast_S8_S1x8_1 : S8.BroadcastsInDim S1x8 (![1] : Fin 1 → Fin S1x8.rank)
  bcast_S1x8_S2048x8_0_1 : S1x8.BroadcastsInDim S2048x8 (![0, 1] : Fin 2 → Fin S2048x8.rank)
  concatenates_S2048x8_S2048x8_S2048x16_d1 : Shape.Concatenates [S2048x8, S2048x8] S2048x16 1
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x32 : S_.BroadcastsInDim S2048x32 (![] : Fin 0 → Fin S2048x32.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  shapeCasts_S2048x1_S2048 : S2048x1.ShapeCasts S2048
  bcast_S2048_S128x24x2048_2 : S2048.BroadcastsInDim S128x24x2048 (![2] : Fin 1 → Fin S128x24x2048.rank)
  dot_S2048x3072_S3072x8_S2048x8_1_0_0_1_n_n_wf : DotDims.WF S2048x3072 S3072x8 S2048x8 [1] [0] [0] [1] [] []
  dot_S2048x16_S16x32_S2048x32_1_0_0_1_n_n_wf : DotDims.WF S2048x16 S16x32 S2048x32 [1] [0] [0] [1] [] []
  dot_S2048x32_S32x1_S2048x1_1_0_0_1_n_n_wf : DotDims.WF S2048x32 S32x1 S2048x1 [1] [0] [0] [1] [] []

variable [Facts₀]

def dot_S2048x3072_S3072x8_S2048x8_1_0_0_1_n_n : DotDims S2048x3072 S3072x8 S2048x8 where
  lhsContracting := [1]
  rhsContracting := [0]
  lhsNonContracting := [0]
  rhsNonContracting := [1]
  lhsBatch := []
  rhsBatch := []
  wf := dot_S2048x3072_S3072x8_S2048x8_1_0_0_1_n_n_wf
def dot_S2048x16_S16x32_S2048x32_1_0_0_1_n_n : DotDims S2048x16 S16x32 S2048x32 where
  lhsContracting := [1]
  rhsContracting := [0]
  lhsNonContracting := [0]
  rhsNonContracting := [1]
  lhsBatch := []
  rhsBatch := []
  wf := dot_S2048x16_S16x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

class Facts : Prop extends Facts₀ where

variable [Facts]
-- ==== Proof.Node.lean ====
/-
  The per-node function both programs compute, and the two matrix products it is made of, read at an entry.

  For one graph node with feature column `xc : Fin 3072 → EReal` the network is
    conv j   = (∑ k, Wc (k, j) · xc k) + bc j                          (eight outputs)
    hid  p   = (∑ q, W1 (q, p) · conv (q mod 8)) + b1 p                (the eight outputs stacked twice, sixteen inputs)
    node     = (∑ p, W2 (p, 0) · leaky (hid p)) + b2
  with `leaky y` = `y` where `y ≥ 0` and `y` times the f32 word of 0.01 elsewhere. Every operation is the extended
  reals' own; nothing here needs the inputs to be finite.

  A product that contracts the FIRST axis of both operands, [K, M] against [K, N] into a zero accumulator, is at (p, q) the
  sum over k of A (k, p) · B (k, q); the host's row-major product [M, K] against [K, N] is at (r, c) the sum over k of
  X (r, k) · W (k, c). In both the contraction index has one coordinate, `k : Fin K`.
-/
import Idealize.ShloMosaic.PureOps.Ideal.Laws
import Idealize.ShloMosaic.Lib.ValueIdx

noncomputable section

open scoped BigOperators

namespace Cert.Node

open Idealize.ShloMosaic Idealize.ShloMosaic.ValueIdx

/-! ## A product contracting the first axis of both operands -/

section FirstAxes
variable {K M N : Nat} (wf : DotDims.WF ⟨2, ![K, M]⟩ ⟨2, ![K, N]⟩ ⟨2, ![M, N]⟩ [0] [0] [1] [1] [] [])

/-- Dimension numbers `[0] × [0]`, free axes `[1]` and `[1]`, no batch axis. -/
abbrev dimsT : DotDims ⟨2, ![K, M]⟩ ⟨2, ![K, N]⟩ ⟨2, ![M, N]⟩ := ⟨[0], [0], [1], [1], [], [], wf⟩

theorem dimsT_lhs0 (i : (⟨2, ![M, N]⟩ : Shape).Idx) (q : (dimsT wf).contr.Idx) :
    ((dimsT wf).lhsIdx i q 0).val = (q ⟨0, Nat.one_pos⟩).val :=
  (dimsT wf).lhsIdx_val_of_single rfl i q

theorem dimsT_lhs1 (i : (⟨2, ![M, N]⟩ : Shape).Idx) (q : (dimsT wf).contr.Idx) :
    ((dimsT wf).lhsIdx i q 1).val = (i 0).val := by
  unfold DotDims.lhsIdx
  rw [dif_neg (show ¬(1 : Fin (⟨2, ![K, M]⟩ : Shape).rank) ∈ (dimsT wf).lhsBatch from List.not_mem_nil),
    dif_pos (show (1 : Fin (⟨2, ![K, M]⟩ : Shape).rank) ∈ (dimsT wf).lhsNonContracting from List.mem_singleton.mpr rfl)]
  rfl

theorem dimsT_rhs0 (i : (⟨2, ![M, N]⟩ : Shape).Idx) (q : (dimsT wf).contr.Idx) :
    ((dimsT wf).rhsIdx i q 0).val = (q ⟨0, Nat.one_pos⟩).val :=
  (dimsT wf).rhsIdx_val_of_single rfl i q

theorem dimsT_rhs1 (i : (⟨2, ![M, N]⟩ : Shape).Idx) (q : (dimsT wf).contr.Idx) :
    ((dimsT wf).rhsIdx i q 1).val = (i 1).val := by
  unfold DotDims.rhsIdx
  rw [dif_neg (show ¬(1 : Fin (⟨2, ![K, N]⟩ : Shape).rank) ∈ (dimsT wf).rhsBatch from List.not_mem_nil),
    dif_pos (show (1 : Fin (⟨2, ![K, N]⟩ : Shape).rank) ∈ (dimsT wf).rhsNonContracting from List.mem_singleton.mpr rfl)]
  rfl

/-- The block product into the zero accumulator, at (p, q): the sum over the shared first axis. -/
theorem matmulT_apply {φ₁ φ₂ : FTy} (A : FVec Ideal ⟨2, ![K, M]⟩ φ₁) (B : FVec Ideal ⟨2, ![K, N]⟩ φ₂) (p : Fin M) (q : Fin N) :
    FloatOps.matmul (dimsT wf) none A B (constant ⟨2, ![M, N]⟩ .f32 0x00000000#32) (ix2 p q)
      = ∑ k : Fin K, A (ix2 k p) * B (ix2 k q) := by
  rw [Ideal.matmul_constant_zero_apply, ← Equiv.sum_comp (contrEquiv1 (dimsT wf) K rfl rfl).symm]
  refine Finset.sum_congr rfl fun k _ => ?_
  have hk := contrEquiv1_symm_val (dimsT wf) K rfl rfl k
  have el : (dimsT wf).lhsIdx (ix2 p q) ((contrEquiv1 (dimsT wf) K rfl rfl).symm k) = ix2 k p := funext fun a => Fin.ext (by
    match a with
    | ⟨0, _⟩ => exact (dimsT_lhs0 wf _ _).trans hk
    | ⟨1, _⟩ => exact dimsT_lhs1 wf _ _)
  have er : (dimsT wf).rhsIdx (ix2 p q) ((contrEquiv1 (dimsT wf) K rfl rfl).symm k) = ix2 k q := funext fun a => Fin.ext (by
    match a with
    | ⟨0, _⟩ => exact (dimsT_rhs0 wf _ _).trans hk
    | ⟨1, _⟩ => exact dimsT_rhs1 wf _ _)
  rw [el, er]

end FirstAxes

/-! ## The host's row-major product -/

section RowMajor
variable {M K N : Nat} (wf : DotDims.WF ⟨2, ![M, K]⟩ ⟨2, ![K, N]⟩ ⟨2, ![M, N]⟩ [1] [0] [0] [1] [] [])

/-- Dimension numbers `[1] × [0]`, free axes `[0]` and `[1]`, no batch axis. -/
abbrev dimsP : DotDims ⟨2, ![M, K]⟩ ⟨2, ![K, N]⟩ ⟨2, ![M, N]⟩ := ⟨[1], [0], [0], [1], [], [], wf⟩

theorem dimsP_lhs0 (i : (⟨2, ![M, N]⟩ : Shape).Idx) (q : (dimsP wf).contr.Idx) :
    ((dimsP wf).lhsIdx i q 0).val = (i 0).val := by
  unfold DotDims.lhsIdx
  rw [dif_neg (show ¬(0 : Fin (⟨2, ![M, K]⟩ : Shape).rank) ∈ (dimsP wf).lhsBatch from List.not_mem_nil),
    dif_pos (show (0 : Fin (⟨2, ![M, K]⟩ : Shape).rank) ∈ (dimsP wf).lhsNonContracting from List.mem_singleton.mpr rfl)]
  rfl

theorem dimsP_lhs1 (i : (⟨2, ![M, N]⟩ : Shape).Idx) (q : (dimsP wf).contr.Idx) :
    ((dimsP wf).lhsIdx i q 1).val = (q ⟨0, Nat.one_pos⟩).val :=
  (dimsP wf).lhsIdx_val_of_single rfl i q

theorem dimsP_rhs0 (i : (⟨2, ![M, N]⟩ : Shape).Idx) (q : (dimsP wf).contr.Idx) :
    ((dimsP wf).rhsIdx i q 0).val = (q ⟨0, Nat.one_pos⟩).val :=
  (dimsP wf).rhsIdx_val_of_single rfl i q

theorem dimsP_rhs1 (i : (⟨2, ![M, N]⟩ : Shape).Idx) (q : (dimsP wf).contr.Idx) :
    ((dimsP wf).rhsIdx i q 1).val = (i 1).val := by
  unfold DotDims.rhsIdx
  rw [dif_neg (show ¬(1 : Fin (⟨2, ![K, N]⟩ : Shape).rank) ∈ (dimsP wf).rhsBatch from List.not_mem_nil),
    dif_pos (show (1 : Fin (⟨2, ![K, N]⟩ : Shape).rank) ∈ (dimsP wf).rhsNonContracting from List.mem_singleton.mpr rfl)]
  rfl

/-- The host's product at (r, c): the sum over the contracted axis. -/
theorem dotP_apply {φ₁ φ₂ : FTy} (prec : Option ContractPrecision) (sched : HostSchedule)
    (X : FVec Ideal ⟨2, ![M, K]⟩ φ₁) (W : FVec Ideal ⟨2, ![K, N]⟩ φ₂) (r : Fin M) (c : Fin N) :
    FloatOps.dotGeneral (dimsP wf) prec sched X W (ix2 r c) = ∑ k : Fin K, X (ix2 r k) * W (ix2 k c) := by
  rw [Ideal.dotGeneral_apply, ← Equiv.sum_comp (contrEquiv1 (dimsP wf) K rfl rfl).symm]
  refine Finset.sum_congr rfl fun k _ => ?_
  have hk := contrEquiv1_symm_val (dimsP wf) K rfl rfl k
  have el : (dimsP wf).lhsIdx (ix2 r c) ((contrEquiv1 (dimsP wf) K rfl rfl).symm k) = ix2 r k := funext fun a => Fin.ext (by
    match a with
    | ⟨0, _⟩ => exact dimsP_lhs0 wf _ _
    | ⟨1, _⟩ => exact (dimsP_lhs1 wf _ _).trans hk)
  have er : (dimsP wf).rhsIdx (ix2 r c) ((contrEquiv1 (dimsP wf) K rfl rfl).symm k) = ix2 k c := funext fun a => Fin.ext (by
    match a with
    | ⟨0, _⟩ => exact (dimsP_rhs0 wf _ _).trans hk
    | ⟨1, _⟩ => exact dimsP_rhs1 wf _ _)
  rw [el, er]

end RowMajor

/-! ## The network at one node -/

/-- The first layer's output `j` for a node whose feature column is `xc`. -/
def conv (Wc : (⟨2, ![3072, 8]⟩ : Shape).Idx → EReal) (bc : Fin 8 → EReal) (xc : Fin 3072 → EReal) (j : Fin 8) : EReal :=
  (∑ k : Fin 3072, Wc (ix2 k j) * xc k) + bc j

/-- Eight values stacked twice: entry `q` of the sixteen is entry `q mod 8` of the eight. -/
def twice (cv : Fin 8 → EReal) (q : Fin 16) : EReal := cv ⟨q.val % 8, Nat.mod_lt _ (by norm_num)⟩

/-- The hidden layer's pre-activation `p`. -/
def hid (W1 : (⟨2, ![16, 32]⟩ : Shape).Idx → EReal) (b1 : Fin 32 → EReal) (cv : Fin 8 → EReal) (p : Fin 32) : EReal :=
  (∑ q : Fin 16, W1 (ix2 q p) * twice cv q) + b1 p

/-- The leaky rectifier: `y` where `y ≥ 0`, else `y` times the f32 word of 0.01. -/
def leaky (y : EReal) : EReal :=
  Scalar.select (FloatOps.cmpf (F := Ideal) (φ := .f32) .oge y (Scalar.ofBits .f32 0x00000000#32)) y
    (FloatOps.mulf (F := Ideal) (φ := .f32) y (Scalar.ofBits .f32 0x3C23D70A#32))

/-- The network's scalar for one node. -/
def node (Wc : (⟨2, ![3072, 8]⟩ : Shape).Idx → EReal) (bc : Fin 8 → EReal) (W1 : (⟨2, ![16, 32]⟩ : Shape).Idx → EReal)
    (b1 : Fin 32 → EReal) (W2 : (⟨2, ![32, 1]⟩ : Shape).Idx → EReal) (b2 : EReal) (xc : Fin 3072 → EReal) : EReal :=
  (∑ p : Fin 32, W2 (ix2 p (0 : Fin 1)) * leaky (hid W1 b1 (conv Wc bc xc) p)) + b2

/-- The whole result: entry (b, l, n) is node `n`'s scalar, the node's column read off the [3072, 2048] view of the
    [128, 24, 2048] input. -/
def G (h : (⟨3, ![128, 24, 2048]⟩ : Shape).ShapeCasts ⟨2, ![3072, 2048]⟩)
    (a0 : (⟨3, ![128, 24, 2048]⟩ : Shape).Idx → EReal) (a3 : (⟨2, ![3072, 8]⟩ : Shape).Idx → EReal)
    (a4 : (⟨1, ![8]⟩ : Shape).Idx → EReal) (a5 : (⟨2, ![16, 32]⟩ : Shape).Idx → EReal) (a6 : (⟨1, ![32]⟩ : Shape).Idx → EReal)
    (a7 : (⟨2, ![32, 1]⟩ : Shape).Idx → EReal) (a8 : (⟨1, ![1]⟩ : Shape).Idx → EReal) :
    (⟨3, ![128, 24, 2048]⟩ : Shape).Idx → EReal :=
  fun i => node a3 (fun j => a4 (ix1 j)) a5 (fun p => a6 (ix1 p)) a7 (a8 (ix1 (0 : Fin 1)))
    (fun k => shapeCast ⟨2, ![3072, 2048]⟩ a0 h (ix2 k (i 2)))

end Cert.Node

end
-- ==== Proof.LibKeepdims.lean ====
/-
  Layout and reduction forms that a `keepdims=True` reduction meets, read at an index written by coordinates.

  A sum kept as a column — `[a]` viewed as `[a, 1]` — and that column, or a single `[1, 1]` cell, spread
  back over an `[a, b]` block read one entry of the smaller array; and a host sum over the last two axes of a
  rank-4 array is, at each index of the two axes kept, the double sum over the two coordinates dropped (every
  index that drops to `(p, q)` is `(p, q, l, k)` for exactly one pair `(l, k)`).
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-! ## A column made of a vector, and spread over a block -/

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A single cell `[1, 1]` broadcast to `[a, b]` reads that cell at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-! ## A host sum over the last two of four axes -/

/-- The host's float sum over axes 2 and 3 of an `[a, b, c, d]` array, at `(p, q)`: the initial value plus the
    sum over `l` and `k` of the operand at `(p, q, l, k)`. The indices that drop to `(p, q)` correspond one to
    one to the pairs `(l, k)` of their last two coordinates. -/
theorem hostReduceAdd_lastTwo {a b c d : ℕ}
    (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ l : Fin c, ∑ k : Fin d, x (ix4 p q l k) := by
  unfold Ideal.hostReduceAdd
  refine congrArg (init + ·) ?_
  rw [← Finset.sum_product' (Finset.univ : Finset (Fin c)) (Finset.univ : Finset (Fin d)) (fun l k => x (ix4 p q l k))]
  -- the axes kept are 0 and 1, whatever the extents: a dropped index has the source's first two coordinates
  have d0 : ∀ i : (⟨4, ![a, b, c, d]⟩ : Shape).Idx, (h.drop i 0 : ℕ) = i 0 := fun _ => rfl
  have d1 : ∀ i : (⟨4, ![a, b, c, d]⟩ : Shape).Idx, (h.drop i 1 : ℕ) = i 1 := fun _ => rfl
  refine Finset.sum_nbij' (fun i => (i 2, i 3)) (fun lk => ix4 p q lk.1 lk.2) ?_ ?_ ?_ ?_ ?_
  · intro i _; exact Finset.mem_product.2 ⟨Finset.mem_univ _, Finset.mem_univ _⟩
  · intro lk _
    refine Finset.mem_filter.2 ⟨Finset.mem_univ _, funext fun ax => Fin.ext ?_⟩
    match ax with
    | ⟨0, _⟩ => exact d0 _
    | ⟨1, _⟩ => exact d1 _
  · intro i hi
    have hj := (Finset.mem_filter.1 hi).2
    funext ax; apply Fin.ext
    match ax with
    | ⟨0, _⟩ => show p.val = (i 0).val; rw [← d0 i, hj]; rfl
    | ⟨1, _⟩ => show q.val = (i 1).val; rw [← d1 i, hj]; rfl
    | ⟨2, _⟩ => rfl
    | ⟨3, _⟩ => rfl
  · intro lk _; rfl
  · intro i hi
    have hj := (Finset.mem_filter.1 hi).2
    refine congrArg x ?_
    funext ax; apply Fin.ext
    match ax with
    | ⟨0, _⟩ => show (i 0).val = p.val; rw [← d0 i, hj]; rfl
    | ⟨1, _⟩ => show (i 1).val = q.val; rw [← d1 i, hj]; rfl
    | ⟨2, _⟩ => rfl
    | ⟨3, _⟩ => rfl

end Cert.LibKeepdims

end
-- ==== Proof.KernelPay.lean ====
/-
  The kernel body's stored value read at one entry of its [128, 24, 512] block.

  The body takes a [3072, 512] slab of node columns and the seven small operands, runs the three layers with the node
  axis last throughout, and repeats the resulting row of 512 scalars over the first two axes. So entry (b, l, n) of what
  it stores is the network's scalar (Node.lean's `node`) of column `n` of the slab; the biases arrive as columns
  [8, 1], [32, 1] and a single cell [1, 1].  A change of float format is the identity at the extended reals, so the
  bf16 casts of the operands vanish.
-/
import proofs.«178406_j5162550689850_1_alg».proof.Proof.Gen.KernelIdeal.Skeleton
import proofs.«178406_j5162550689850_1_alg».proof.Proof.Node
import proofs.«178406_j5162550689850_1_alg».proof.Proof.LibKeepdims
import Idealize.ShloMosaic.Lib.Pipeline.Value
import Idealize.ShloMosaic.Lib.ValueLayout

noncomputable section

open scoped BigOperators

namespace Cert.KernelIdeal.Pay

open Idealize.ShloMosaic Idealize.ShloMosaic.ValueIdx Cert.Node Cert.LibKeepdims

/-- Eight rows stacked twice along the first axis: row `q` of the sixteen is row `q mod 8` of the eight. -/
theorem stacked_twice (cat : Shape.Concatenates [(⟨2, ![8, 512]⟩ : Shape), ⟨2, ![8, 512]⟩] ⟨2, ![16, 512]⟩ 0)
    (v : (⟨2, ![8, 512]⟩ : Shape).Idx → EReal) (q : Fin 16) (n : Fin 512) :
    concatenate ⟨2, ![16, 512]⟩ 0 [⟨⟨2, ![8, 512]⟩, v⟩, ⟨⟨2, ![8, 512]⟩, v⟩] cat (ix2 q n)
      = twice (fun j => v (ix2 j n)) q := by
  refine concatenate_replicate_apply (t := ⟨2, ![16, 512]⟩) (s₁ := ⟨2, ![8, 512]⟩) 0 2 v cat rfl (ix2 q n)
    (ix2 (⟨q.val % 8, Nat.mod_lt _ (by norm_num)⟩ : Fin 8) n) rfl fun b hb => ?_
  match b with
  | ⟨0, _⟩ => exact absurd rfl hb
  | ⟨1, _⟩ => rfl

/-- The first layer at (j, n): the slab's column `n` against column `j` of the weights, plus the bias column's entry. -/
theorem conv_stage (wf : DotDims.WF ⟨2, ![3072, 8]⟩ ⟨2, ![3072, 512]⟩ ⟨2, ![8, 512]⟩ [0] [0] [1] [1] [] [])
    (x0 : (⟨2, ![3072, 512]⟩ : Shape).Idx → EReal) (x1 : (⟨2, ![3072, 8]⟩ : Shape).Idx → EReal)
    (x2 : (⟨2, ![8, 1]⟩ : Shape).Idx → EReal)
    (s0 : (⟨2, ![3072, 512]⟩ : Shape).ShapeCasts ⟨2, ![3072, 512]⟩) (s2 : (⟨2, ![8, 1]⟩ : Shape).ShapeCasts ⟨2, ![8, 1]⟩)
    (bt : (⟨2, ![8, 1]⟩ : Shape).Broadcasts ⟨2, ![8, 512]⟩) (hb : FTy.bits .bf16 < FTy.bits .f32) (j : Fin 8) (n : Fin 512) :
    addf (F := Ideal) (matmul (dimsT wf) none (truncf (φ := .f32) .bf16 x1 hb) (truncf (φ := .f32) .bf16 (shapeCast ⟨2, ![3072, 512]⟩ x0 s0) hb)
          (constant ⟨2, ![8, 512]⟩ .f32 0x00000000#32))
        (broadcastTo ⟨2, ![8, 512]⟩ (shapeCast ⟨2, ![8, 1]⟩ x2 s2) bt) (ix2 j n)
      = conv x1 (fun j => x2 (ix2 j (0 : Fin 1))) (fun k => x0 (ix2 k n)) j := by
  rw [shapeCast_self, shapeCast_self]
  show FloatOps.matmul (dimsT wf) none (truncf (F := Ideal) (φ := .f32) .bf16 x1 hb) (truncf (F := Ideal) (φ := .f32) .bf16 x0 hb)
      (constant ⟨2, ![8, 512]⟩ .f32 0x00000000#32) (ix2 j n) + broadcastTo ⟨2, ![8, 512]⟩ x2 bt (ix2 j n) = _
  rw [matmulT_apply, broadcastTo_a1_ab_apply]
  rfl

/-- The hidden layer's pre-activation at (p, n), over the first layer's block `v` stacked twice. -/
theorem hid_stage (wf : DotDims.WF ⟨2, ![16, 32]⟩ ⟨2, ![16, 512]⟩ ⟨2, ![32, 512]⟩ [0] [0] [1] [1] [] [])
    (cat : Shape.Concatenates [(⟨2, ![8, 512]⟩ : Shape), ⟨2, ![8, 512]⟩] ⟨2, ![16, 512]⟩ 0)
    (v : (⟨2, ![8, 512]⟩ : Shape).Idx → EReal) (x3 : (⟨2, ![16, 32]⟩ : Shape).Idx → EReal)
    (x4 : (⟨2, ![32, 1]⟩ : Shape).Idx → EReal) (s4 : (⟨2, ![32, 1]⟩ : Shape).ShapeCasts ⟨2, ![32, 1]⟩)
    (bt : (⟨2, ![32, 1]⟩ : Shape).Broadcasts ⟨2, ![32, 512]⟩) (hb : FTy.bits .bf16 < FTy.bits .f32) (p : Fin 32) (n : Fin 512) :
    addf (F := Ideal) (matmul (dimsT wf) none (truncf (φ := .f32) .bf16 x3 hb)
          (truncf (φ := .f32) .bf16 (concatenate ⟨2, ![16, 512]⟩ 0 [⟨⟨2, ![8, 512]⟩, v⟩, ⟨⟨2, ![8, 512]⟩, v⟩] cat) hb)
          (constant ⟨2, ![32, 512]⟩ .f32 0x00000000#32))
        (broadcastTo ⟨2, ![32, 512]⟩ (shapeCast ⟨2, ![32, 1]⟩ x4 s4) bt) (ix2 p n)
      = hid x3 (fun p => x4 (ix2 p (0 : Fin 1))) (fun j => v (ix2 j n)) p := by
  rw [shapeCast_self]
  show FloatOps.matmul (dimsT wf) none (truncf (F := Ideal) (φ := .f32) .bf16 x3 hb)
      (truncf (F := Ideal) (φ := .f32) .bf16 (concatenate ⟨2, ![16, 512]⟩ 0 [⟨⟨2, ![8, 512]⟩, v⟩, ⟨⟨2, ![8, 512]⟩, v⟩] cat) hb)
      (constant ⟨2, ![32, 512]⟩ .f32 0x00000000#32) (ix2 p n) + broadcastTo ⟨2, ![32, 512]⟩ x4 bt (ix2 p n) = _
  rw [matmulT_apply, broadcastTo_a1_ab_apply]
  unfold hid
  refine congrArg (· + x4 (ix2 p (0 : Fin 1))) (Finset.sum_congr rfl fun q _ => ?_)
  show x3 (ix2 q p) * concatenate ⟨2, ![16, 512]⟩ 0 [⟨⟨2, ![8, 512]⟩, v⟩, ⟨⟨2, ![8, 512]⟩, v⟩] cat (ix2 q n) = _
  rw [stacked_twice]

/-- The last layer at (0, n), over the hidden pre-activations `y`: the rectifier, the product with the [32, 1] weights,
    the single bias cell. -/
theorem out_stage (wf : DotDims.WF ⟨2, ![32, 1]⟩ ⟨2, ![32, 512]⟩ ⟨2, ![1, 512]⟩ [0] [0] [1] [1] [] [])
    (y : (⟨2, ![32, 512]⟩ : Shape).Idx → EReal) (x5 : (⟨2, ![32, 1]⟩ : Shape).Idx → EReal)
    (x6 : (⟨2, ![1, 1]⟩ : Shape).Idx → EReal) (s6 : (⟨2, ![1, 1]⟩ : Shape).ShapeCasts ⟨2, ![1, 1]⟩)
    (bt : (⟨2, ![1, 1]⟩ : Shape).Broadcasts ⟨2, ![1, 512]⟩) (hb : FTy.bits .bf16 < FTy.bits .f32) (n : Fin 512) :
    addf (F := Ideal) (matmul (dimsT wf) none (truncf (φ := .f32) .bf16 x5 hb)
          (truncf (φ := .f32) .bf16
            (select (cmpf (F := Ideal) (φ := .f32) .oge y (broadcast ⟨2, ![32, 512]⟩ (Scalar.ofBits .f32 0x00000000#32))) y
              (mulf (F := Ideal) (φ := .f32) y (broadcast ⟨2, ![32, 512]⟩ (Scalar.ofBits .f32 0x3C23D70A#32)))) hb)
          (constant ⟨2, ![1, 512]⟩ .f32 0x00000000#32))
        (broadcastTo ⟨2, ![1, 512]⟩ (shapeCast ⟨2, ![1, 1]⟩ x6 s6) bt) (ix2 (0 : Fin 1) n)
      = (∑ p : Fin 32, x5 (ix2 p (0 : Fin 1)) * leaky (y (ix2 p n))) + x6 (ix2 (0 : Fin 1) (0 : Fin 1)) := by
  rw [shapeCast_self]
  show FloatOps.matmul (dimsT wf) none (truncf (F := Ideal) (φ := .f32) .bf16 x5 hb) _
      (constant ⟨2, ![1, 512]⟩ .f32 0x00000000#32) (ix2 (0 : Fin 1) n) + broadcastTo ⟨2, ![1, 512]⟩ x6 bt (ix2 (0 : Fin 1) n) = _
  rw [matmulT_apply, broadcastTo_11_ab_apply]
  rfl

/-- The row of 512 scalars viewed [1, 1, 512] and repeated over [128, 24, 512]: entry (b, l, n) is the row's entry n. -/
theorem spread (r : (⟨2, ![1, 512]⟩ : Shape).Idx → EReal) (s1 : (⟨2, ![1, 512]⟩ : Shape).ShapeCasts ⟨3, ![1, 1, 512]⟩)
    (s2 : (⟨3, ![1, 1, 512]⟩ : Shape).ShapeCasts ⟨3, ![1, 1, 512]⟩)
    (bt : (⟨3, ![1, 1, 512]⟩ : Shape).Broadcasts ⟨3, ![128, 24, 512]⟩) (b : Fin 128) (l : Fin 24) (n : Fin 512) :
    broadcastTo ⟨3, ![128, 24, 512]⟩ (shapeCast ⟨3, ![1, 1, 512]⟩ (shapeCast ⟨3, ![1, 1, 512]⟩ r s1) s2) bt (ix3 b l n)
      = r (ix2 (0 : Fin 1) n) := by
  rw [shapeCast_self]
  rw [broadcastTo_apply _ bt (ix3 b l n) (ix3 (0 : Fin 1) (0 : Fin 1) n) (fun a => by
    match a with
    | ⟨0, _⟩ => rfl
    | ⟨1, _⟩ => rfl
    | ⟨2, _⟩ => rfl)]
  exact shapeCast_ab_1ab_apply r s1 (0 : Fin 1) (0 : Fin 1) n

end Cert.KernelIdeal.Pay

namespace Cert.KernelIdeal.Pay

open Cert.KernelIdeal Cert.KernelIdeal.Gen Idealize.ShloMosaic Idealize.ShloMosaic.ValueIdx Cert.Node

/-- ENTRY (b, l, n) OF WHAT THE BODY STORES is the network's scalar of column `n` of the slab. -/
theorem pay_apply (x0 : Vec Ideal S3072x512 .f32) (x1 : Vec Ideal S3072x8 .f32) (x2 : Vec Ideal S8x1 .f32)
    (x3 : Vec Ideal S16x32 .f32) (x4 : Vec Ideal S32x1 .f32) (x5 : Vec Ideal S32x1 .f32) (x6 : Vec Ideal S1x1 .f32)
    (b : Fin 128) (l : Fin 24) (n : Fin 512) :
    k0_pay1 (F := Ideal) x0 x1 x2 x3 x4 x5 x6 (ix3 b l n)
      = node x1 (fun j => x2 (ix2 j (0 : Fin 1))) x3 (fun p => x4 (ix2 p (0 : Fin 1))) x5 (x6 (ix2 (0 : Fin 1) (0 : Fin 1)))
          (fun k => x0 (ix2 k n)) := by
  unfold k0_pay1
  refine (spread _ _ _ _ b l n).trans ?_
  refine (out_stage _ _ x5 x6 _ _ _ n).trans ?_
  unfold node
  refine congrArg (· + x6 (ix2 (0 : Fin 1) (0 : Fin 1))) (Finset.sum_congr rfl fun p _ => ?_)
  refine congrArg (fun z => x5 (ix2 p (0 : Fin 1)) * leaky z) ?_
  refine (hid_stage _ _ _ x3 x4 _ _ _ p n).trans ?_
  refine congrArg (fun cv => hid x3 (fun p => x4 (ix2 p (0 : Fin 1))) cv p) (funext fun j => ?_)
  exact conv_stage _ x0 x1 x2 _ _ _ _ j n

end Cert.KernelIdeal.Pay

end
-- ==== Proof.KernelValue.lean ====
/-
  The kernel's result array, whole: entry (b, l, n) of the [128, 24, 2048] output is the network's scalar for node `n`.

  The grid has four points; point `t` stages columns 512·t … 512·t + 511 of the [3072, 2048] view of the input (all 3072
  rows), the six small operands whole, and writes back the [128, 24, 512] block at node offset 512·t. Entry (b, l, n') of
  that block is the network's scalar of the slab's column n' (KernelPay.lean), which is column 512·t + n' of the view; the
  bias columns [8, 1], [32, 1] and the cell [1, 1] are the host's reshapes of the bias vectors. The four blocks tile the
  node axis: node `n` lies in the block of point `n / 512`.
-/
import proofs.«178406_j5162550689850_1_alg».proof.Proof.Gen.KernelIdeal.Value
import proofs.«178406_j5162550689850_1_alg».proof.Proof.KernelPay
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx Cert.Node Cert.LibKeepdims Idealize.ShloMosaic.StableHlo
open Idealize.ShloMosaic.Pipeline (Dat)

variable (m : (ℓ : Loc nD τ sig) → Buf (Elt Ideal) ℓ) (ρ : Dev nD → PrngReg)

/-- The network's result over the argument arrays as launched on core `c`. -/
def Gm (c : Dev nD) : S128x24x2048.Idx → EReal :=
  G Facts₀.shapeCasts_S128x24x2048_S3072x2048 (m ((c : Thread nD τ).loc main_arg0)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8))

/-! ## What the host wrote before the region -/

/-- The region's first operand is the [3072, 2048] view of the input. -/
theorem V_v0 (c : Dev nD) : (V m c main_v0 : S3072x2048.Idx → EReal)
    = shapeCast S3072x2048 (m ((c : Thread nD τ).loc main_arg0) : S128x24x2048.Idx → EReal) Facts₀.shapeCasts_S128x24x2048_S3072x2048 := by
  dsimp only [Gen.V, Gen.hostOps0]; after_results; rfl

/-- The first bias as a column. -/
theorem V_v1 (c : Dev nD) : (V m c main_v1 : S8x1.Idx → EReal)
    = shapeCast S8x1 (m ((c : Thread nD τ).loc main_arg4) : S8.Idx → EReal) Facts₀.shapeCasts_S8_S8x1 := by
  dsimp only [Gen.V, Gen.hostOps0]; after_results; rfl

/-- The second bias as a column. -/
theorem V_v2 (c : Dev nD) : (V m c main_v2 : S32x1.Idx → EReal)
    = shapeCast S32x1 (m ((c : Thread nD τ).loc main_arg6) : S32.Idx → EReal) Facts₀.shapeCasts_S32_S32x1 := by
  dsimp only [Gen.V, Gen.hostOps0]; after_results; rfl

/-- The last bias as a single cell. -/
theorem V_v3 (c : Dev nD) : (V m c main_v3 : S1x1.Idx → EReal)
    = shapeCast S1x1 (m ((c : Thread nD τ).loc main_arg8) : S1.Idx → EReal) Facts₀.shapeCasts_S1_S1x1 := by
  dsimp only [Gen.V, Gen.hostOps0]; after_results; rfl

/-! ## The blocks -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the four points: the slab and the output block move along the node axis with the point,
    every other block index is zero. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = 0 ∧ win0_7.index t (1 : Fin 3) = 0 ∧ win0_7.index t (2 : Fin 3) = t.val :=
  (by decide +kernel : ∀ t : Fin grid0.N, _)

/-- The slab at point `t`: its column `n` is column 512·t + n of the view. -/
theorem slab_apply (c : Dev nD) (t : Fin cfg0.N) (k : Fin 3072) (n : Fin 512) (q : Fin 2048) (hq : q.val = t.val * 512 + n.val) :
    (iblk m c 0 t : S3072x512.Idx → EReal) (ix2 k n) = (V m c main_v0 : S3072x2048.Idx → EReal) (ix2 k q) := by
  show (V m c main_v0 : S3072x2048.Idx → EReal) (((cfg0.win 0).blk t).view.emb (ix2 k n)) = _
  refine congrArg (V m c main_v0 : S3072x2048.Idx → EReal) (funext fun a => Fin.ext ?_)
  obtain ⟨e0, e1, -⟩ := idx_facts t
  match a with
  | ⟨0, _⟩ => show win0_0.index t (0 : Fin 2) * 3072 + 1 * k.val = k.val; omega
  | ⟨1, _⟩ => show win0_0.index t (1 : Fin 2) * 512 + 1 * n.val = q.val; omega

/-- The first layer's weights are staged whole. -/
theorem blk1 (c : Dev nD) (t : Fin cfg0.N) : (iblk m c 1 t : S3072x8.Idx → EReal) = m ((c : Thread nD τ).loc main_arg3) := by
  rw [← V_main_arg3 m c]
  funext j
  show (V m c main_arg3 : S3072x8.Idx → EReal) (((cfg0.win 1).blk t).view.emb j) = _
  refine congrArg (V m c main_arg3 : S3072x8.Idx → EReal) (funext fun a => Fin.ext ?_)
  obtain ⟨-, -, e0, e1, -⟩ := idx_facts t
  match a with
  | ⟨0, _⟩ => show win0_1.index t (0 : Fin 2) * 3072 + 1 * (j 0).val = (j 0).val; omega
  | ⟨1, _⟩ => show win0_1.index t (1 : Fin 2) * 8 + 1 * (j 1).val = (j 1).val; omega

/-- The first bias column is staged whole. -/
theorem blk2 (c : Dev nD) (t : Fin cfg0.N) : (iblk m c 2 t : S8x1.Idx → EReal) = V m c main_v1 := by
  funext j
  show (V m c main_v1 : S8x1.Idx → EReal) (((cfg0.win 2).blk t).view.emb j) = _
  refine congrArg (V m c main_v1 : S8x1.Idx → EReal) (funext fun a => Fin.ext ?_)
  obtain ⟨-, -, -, -, e0, e1, -⟩ := idx_facts t
  match a with
  | ⟨0, _⟩ => show win0_2.index t (0 : Fin 2) * 8 + 1 * (j 0).val = (j 0).val; omega
  | ⟨1, _⟩ => show win0_2.index t (1 : Fin 2) * 1 + 1 * (j 1).val = (j 1).val; omega

/-- The hidden layer's weights are staged whole. -/
theorem blk3 (c : Dev nD) (t : Fin cfg0.N) : (iblk m c 3 t : S16x32.Idx → EReal) = m ((c : Thread nD τ).loc main_arg5) := by
  rw [← V_main_arg5 m c]
  funext j
  show (V m c main_arg5 : S16x32.Idx → EReal) (((cfg0.win 3).blk t).view.emb j) = _
  refine congrArg (V m c main_arg5 : S16x32.Idx → EReal) (funext fun a => Fin.ext ?_)
  obtain ⟨-, -, -, -, -, -, e0, e1, -⟩ := idx_facts t
  match a with
  | ⟨0, _⟩ => show win0_3.index t (0 : Fin 2) * 16 + 1 * (j 0).val = (j 0).val; omega
  | ⟨1, _⟩ => show win0_3.index t (1 : Fin 2) * 32 + 1 * (j 1).val = (j 1).val; omega

/-- The second bias column is staged whole. -/
theorem blk4 (c : Dev nD) (t : Fin cfg0.N) : (iblk m c 4 t : S32x1.Idx → EReal) = V m c main_v2 := by
  funext j
  show (V m c main_v2 : S32x1.Idx → EReal) (((cfg0.win 4).blk t).view.emb j) = _
  refine congrArg (V m c main_v2 : S32x1.Idx → EReal) (funext fun a => Fin.ext ?_)
  obtain ⟨-, -, -, -, -, -, -, -, e0, e1, -⟩ := idx_facts t
  match a with
  | ⟨0, _⟩ => show win0_4.index t (0 : Fin 2) * 32 + 1 * (j 0).val = (j 0).val; omega
  | ⟨1, _⟩ => show win0_4.index t (1 : Fin 2) * 1 + 1 * (j 1).val = (j 1).val; omega

/-- The last layer's weights are staged whole. -/
theorem blk5 (c : Dev nD) (t : Fin cfg0.N) : (iblk m c 5 t : S32x1.Idx → EReal) = m ((c : Thread nD τ).loc main_arg7) := by
  rw [← V_main_arg7 m c]
  funext j
  show (V m c main_arg7 : S32x1.Idx → EReal) (((cfg0.win 5).blk t).view.emb j) = _
  refine congrArg (V m c main_arg7 : S32x1.Idx → EReal) (funext fun a => Fin.ext ?_)
  obtain ⟨-, -, -, -, -, -, -, -, -, -, e0, e1, -⟩ := idx_facts t
  match a with
  | ⟨0, _⟩ => show win0_5.index t (0 : Fin 2) * 32 + 1 * (j 0).val = (j 0).val; omega
  | ⟨1, _⟩ => show win0_5.index t (1 : Fin 2) * 1 + 1 * (j 1).val = (j 1).val; omega

/-- The last bias cell is staged whole. -/
theorem blk6 (c : Dev nD) (t : Fin cfg0.N) : (iblk m c 6 t : S1x1.Idx → EReal) = V m c main_v3 := by
  funext j
  show (V m c main_v3 : S1x1.Idx → EReal) (((cfg0.win 6).blk t).view.emb j) = _
  refine congrArg (V m c main_v3 : S1x1.Idx → EReal) (funext fun a => Fin.ext ?_)
  obtain ⟨-, -, -, -, -, -, -, -, -, -, -, -, e0, e1, -⟩ := idx_facts t
  match a with
  | ⟨0, _⟩ => show win0_6.index t (0 : Fin 2) * 1 + 1 * (j 0).val = (j 0).val; omega
  | ⟨1, _⟩ => show win0_6.index t (1 : Fin 2) * 1 + 1 * (j 1).val = (j 1).val; omega

/-- The network's scalar depends on its operands only as functions. -/
theorem node_congr {Wc Wc' : (⟨2, ![3072, 8]⟩ : Shape).Idx → EReal} {bc bc' : Fin 8 → EReal}
    {W1 W1' : (⟨2, ![16, 32]⟩ : Shape).Idx → EReal} {b1 b1' : Fin 32 → EReal} {W2 W2' : (⟨2, ![32, 1]⟩ : Shape).Idx → EReal}
    {b2 b2' : EReal} {xc xc' : Fin 3072 → EReal} (h1 : Wc = Wc') (h2 : bc = bc') (h3 : W1 = W1') (h4 : b1 = b1')
    (h5 : W2 = W2') (h6 : b2 = b2') (h0 : xc = xc') : node Wc bc W1 b1 W2 b2 xc = node Wc' bc' W1' b1' W2' b2' xc' := by
  subst h1 h2 h3 h4 h5 h6 h0; rfl

/-- WHAT POINT `t` WRITES BACK is block `t` of the network's result. -/
theorem flushed_eq (c : Dev nD) (t : Fin cfg0.N) :
    (dats m 0 c).flushed 7 t = ((cfg0.win 7).blk t).view.read (Elt Ideal) (Gm m c) := by
  rw [Value.flushed7]
  unfold out0_7
  rw [View.canon_unit_zero hz3]
  simp only [View.ld_unit_zero (S := S3072x512) hz2, View.ld_unit_zero (S := S3072x8) hz2, View.ld_unit_zero (S := S8x1) hz2,
    View.ld_unit_zero (S := S16x32) hz2, View.ld_unit_zero (S := S32x1) hz2, View.ld_unit_zero (S := S1x1) hz2]
  funext y
  obtain ⟨b, l, n, rfl⟩ : ∃ (b : Fin 128) (l : Fin 24) (n : Fin 512), y = ix3 b l n := ⟨y 0, y 1, y 2, eq_ix3 y⟩
  show k0_pay1 (F := Ideal) (iblk m c 0 t) (iblk m c 1 t) (iblk m c 2 t) (iblk m c 3 t) (iblk m c 4 t) (iblk m c 5 t) (iblk m c 6 t) (ix3 b l n)
    = Gm m c (((cfg0.win 7).blk t).view.emb (ix3 b l n))
  refine (Pay.pay_apply (iblk m c 0 t) (iblk m c 1 t) (iblk m c 2 t) (iblk m c 3 t) (iblk m c 4 t) (iblk m c 5 t) (iblk m c 6 t) b l n).trans ?_
  obtain ⟨-, -, -, -, -, -, -, -, -, -, -, -, -, -, e70, e71, e72⟩ := idx_facts t
  have hn : n.val < 512 := n.isLt
  have ht : t.val < 4 := lt_of_lt_of_eq t.isLt N_0
  have hq : ((((cfg0.win 7).blk t).view.emb (ix3 b l n) : S128x24x2048.Idx) 2).val = t.val * 512 + n.val := by
    show win0_7.index t (2 : Fin 3) * 512 + 1 * n.val = _; omega
  unfold Gm G
  refine node_congr (blk1 m c t) ?_ (blk3 m c t) ?_ (blk5 m c t) ?_ ?_
  · funext j
    rw [blk2 m c t, V_v1 m c]
    exact shapeCast_a_a1_apply _ _ j (0 : Fin 1)
  · funext p
    rw [blk4 m c t, V_v2 m c]
    exact shapeCast_a_a1_apply _ _ p (0 : Fin 1)
  · rw [blk6 m c t, V_v3 m c]
    exact shapeCast_a_a1_apply _ _ (0 : Fin 1) (0 : Fin 1)
  · funext k
    rw [← V_v0 m c]
    exact slab_apply m c t k n _ hq

/-! ## The cover -/

/-- An index of the output lies in point `t`'s block iff each coordinate is in the block's range on its axis. -/
theorem mem_blk7 (t : Fin cfg0.N) (i : S128x24x2048.Idx) :
    i ∈ ((cfg0.win 7).blk t).view.set ↔ ∀ a : Fin 3, win0_7.index t a * S128x24x512.size a ≤ (i a).val
      ∧ (i a).val < win0_7.index t a * S128x24x512.size a + S128x24x512.size a := by
  show i ∈ ((View.whole main_v4).slice (win0_7.rect t)).set ↔ _
  rw [View.set_slice_whole, Rect.mem_set_unit]
  exact Iff.rfl

/-- Node `n` lies in the block of point `n / 512`. -/
theorem cover (i : S128x24x2048.Idx) : ∃ t : Fin cfg0.N, (cfg0.win 7).flush t = true ∧ i ∈ ((cfg0.win 7).blk t).view.set := by
  have h0 : (i 0).val < 128 := (i 0).isLt
  have h1 : (i 1).val < 24 := (i 1).isLt
  have h2 : (i 2).val < 2048 := (i 2).isLt
  obtain ⟨t, ht⟩ : ∃ t : Fin cfg0.N, t.val = (i 2).val / 512 :=
    ⟨⟨(i 2).val / 512, by rw [show cfg0.N = 4 from N_0]; omega⟩, rfl⟩
  refine ⟨t, flush0_7 t, ?_⟩
  rw [mem_blk7]
  obtain ⟨-, -, -, -, -, -, -, -, -, -, -, -, -, -, e70, e71, e72⟩ := idx_facts t
  intro a
  match a with
  | ⟨0, _⟩ => show win0_7.index t (0 : Fin 3) * 128 ≤ (i 0).val ∧ (i 0).val < win0_7.index t (0 : Fin 3) * 128 + 128; omega
  | ⟨1, _⟩ => show win0_7.index t (1 : Fin 3) * 24 ≤ (i 1).val ∧ (i 1).val < win0_7.index t (1 : Fin 3) * 24 + 24; omega
  | ⟨2, _⟩ => show win0_7.index t (2 : Fin 3) * 512 ≤ (i 2).val ∧ (i 2).val < win0_7.index t (2 : Fin 3) * 512 + 512; omega

/-- THE RESULT ARRAY after the run is the network's result. -/
theorem final (c : Dev nD) : (dats m 0 c).arrAt 7 cfg0.N = Gm m c :=
  (dats m 0 c).arrAt_eq_of_cover 7 (Gm m c) (fun t _ => flushed_eq m c t) cover

/-- The kernel's run, read: the result array at the network's result, the arguments unchanged. -/
theorem run : θ_run defs (onTc (τ := τ) (main (F := Ideal))) ⟨m, fun _ => 0, ρ⟩ fun r => ∀ c : Dev nD,
      r.2.mem ((c : Thread nD τ).loc main_v4) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Hand

end
-- ==== Proof.RefRun.lean ====
/-
  The reference program's run, read back.

  @main is a straight line of twenty-five host operations once the rectifier's function and the select function it calls
  are written out at the call: the [3072, 2048] view of the input and its transpose, the three affine layers (a
  row-major product, then the bias vector made a row and repeated down the rows), the eight outputs of the first layer
  concatenated with themselves, the rectifier (compare with zero, scale, select), and the [2048, 1] result viewed
  [2048] and repeated over the first two axes. Every weakly fair execution ends with each buffer at the fold of these
  operations over the launch contents.
-/
import proofs.«178406_j5162550689850_1_alg».proof.Proof.Gen.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem
open Idealize.ShloMosaic.StableHlo

variable {F : FTy → Type} [FloatOps F]

/-- @main's operations in order, the rectifier's seven written out where it is called. -/
abbrev ops : List (HloOp τ sig (Elt F)) :=
  [ reshape main_arg0 main_v0 rfl shapeCasts_S128x24x2048_S3072x2048,
    unary main_v0 main_v1 ((transpose S2048x3072 [1, 0] · transposes_S3072x2048_S2048x3072_1_0) : (⟨S3072x2048, .f32⟩ : BufTy).Contents (Elt F) → (⟨S2048x3072, .f32⟩ : BufTy).Contents (Elt F)),
    binary main_v1 main_arg3 main_v2 ((fun l r => Host.dotGeneral dot_S2048x3072_S3072x8_S2048x8_1_0_0_1_n_n none l r) : (⟨S2048x3072, .f32⟩ : BufTy).Contents (Elt F) → (⟨S3072x8, .f32⟩ : BufTy).Contents (Elt F) → (⟨S2048x8, .f32⟩ : BufTy).Contents (Elt F)),
    unary main_arg4 main_v3 (broadcastInDim S1x8 ![1] bcast_S8_S1x8_1 : (⟨S8, .f32⟩ : BufTy).Contents (Elt F) → (⟨S1x8, .f32⟩ : BufTy).Contents (Elt F)),
    unary main_v3 main_v4 (broadcastInDim S2048x8 ![0, 1] bcast_S1x8_S2048x8_0_1 : (⟨S1x8, .f32⟩ : BufTy).Contents (Elt F) → (⟨S2048x8, .f32⟩ : BufTy).Contents (Elt F)),
    binary main_v2 main_v4 main_v5 (addf : (⟨S2048x8, .f32⟩ : BufTy).Contents (Elt F) → (⟨S2048x8, .f32⟩ : BufTy).Contents (Elt F) → (⟨S2048x8, .f32⟩ : BufTy).Contents (Elt F)),
    binary main_v5 main_v5 main_v6 ((fun a b => concatenate S2048x16 1 [⟨S2048x8, a⟩, ⟨S2048x8, b⟩] concatenates_S2048x8_S2048x8_S2048x16_d1) : (⟨S2048x8, .f32⟩ : BufTy).Contents (Elt F) → (⟨S2048x8, .f32⟩ : BufTy).Contents (Elt F) → (⟨S2048x16, .f32⟩ : BufTy).Contents (Elt F)),
    binary main_v6 main_arg5 main_v7 ((fun l r => Host.dotGeneral dot_S2048x16_S16x32_S2048x32_1_0_0_1_n_n none l r) : (⟨S2048x16, .f32⟩ : BufTy).Contents (Elt F) → (⟨S16x32, .f32⟩ : BufTy).Contents (Elt F) → (⟨S2048x32, .f32⟩ : BufTy).Contents (Elt F)),
    unary main_arg6 main_v8 (broadcastInDim S1x32 ![1] bcast_S32_S1x32_1 : (⟨S32, .f32⟩ : BufTy).Contents (Elt F) → (⟨S1x32, .f32⟩ : BufTy).Contents (Elt F)),
    unary main_v8 main_v9 (broadcastInDim S2048x32 ![0, 1] bcast_S1x32_S2048x32_0_1 : (⟨S1x32, .f32⟩ : BufTy).Contents (Elt F) → (⟨S2048x32, .f32⟩ : BufTy).Contents (Elt F)),
    binary main_v7 main_v9 main_v10 (addf : (⟨S2048x32, .f32⟩ : BufTy).Contents (Elt F) → (⟨S2048x32, .f32⟩ : BufTy).Contents (Elt F) → (⟨S2048x32, .f32⟩ : BufTy).Contents (Elt F)),
    nullary main_cst (constant S_ .f32 0x3C23D70A#32),
    TRef.nullary main_call0.cst (constant S_ .f32 0x00000000#32),
    TRef.unary main_call0.cst main_call0.v0 (broadcastInDim S2048x32 ![] bcast_S_S2048x32),
    TRef.binary (.of main_v10) main_call0.v0 main_call0.v1 (cmpf .oge),
    TRef.unary (.of main_cst) main_call0.v2 id,
    TRef.unary main_call0.v2 main_call0.v3 (broadcastInDim S2048x32 ![] bcast_S_S2048x32),
    TRef.binary main_call0.v3 (.of main_v10) main_call0.v4 mulf,
    TRef.ternary main_call0.v1 (.of main_v10) main_call0.v4 main_call0.call0.v0 select,
    binary main_v11 main_arg7 main_v12 ((fun l r => Host.dotGeneral dot_S2048x32_S32x1_S2048x1_1_0_0_1_n_n none l r) : (⟨S2048x32, .f32⟩ : BufTy).Contents (Elt F) → (⟨S32x1, .f32⟩ : BufTy).Contents (Elt F) → (⟨S2048x1, .f32⟩ : BufTy).Contents (Elt F)),
    unary main_arg8 main_v13 (broadcastInDim S1x1 ![1] bcast_S1_S1x1_1 : (⟨S1, .f32⟩ : BufTy).Contents (Elt F) → (⟨S1x1, .f32⟩ : BufTy).Contents (Elt F)),
    unary main_v13 main_v14 (broadcastInDim S2048x1 ![0, 1] bcast_S1x1_S2048x1_0_1 : (⟨S1x1, .f32⟩ : BufTy).Contents (Elt F) → (⟨S2048x1, .f32⟩ : BufTy).Contents (Elt F)),
    binary main_v12 main_v14 main_v15 (addf : (⟨S2048x1, .f32⟩ : BufTy).Contents (Elt F) → (⟨S2048x1, .f32⟩ : BufTy).Contents (Elt F) → (⟨S2048x1, .f32⟩ : BufTy).Contents (Elt F)),
    reshape main_v15 main_v16 rfl shapeCasts_S2048x1_S2048,
    unary main_v16 main_v17 (broadcastInDim S128x24x2048 ![2] bcast_S2048_S128x24x2048_2 : (⟨S2048, .f32⟩ : BufTy).Contents (Elt F) → (⟨S128x24x2048, .f32⟩ : BufTy).Contents (Elt F)) ]

set_option maxRecDepth 1024 in
/-- @main is that straight line: the two functions unfolded at their calls, the sequencing reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., reshape_bufs_sub .., unary_bufs_sub ..⟩

/-- Every weakly fair execution of @main terminates, and every final state has each buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefValue.lean ====
/-
  The reference's result is the network's result, entry by entry.

  The reference works node-major: the [3072, 2048] view of the input transposed to [2048, 3072], then three row-major
  products, each followed by its bias vector made a row and repeated down the 2048 rows; the first layer's eight outputs
  are concatenated with themselves along the feature axis; the rectifier multiplies by the slope on the left. Read at
  node `n` these are the sums of Node.lean with the factors of each product in the other order, so the only law used is
  the commutativity of the extended reals' product. The [2048, 1] result is viewed [2048] and repeated over the first
  two axes, so entry (b, l, n) is node `n`'s scalar.
-/
import proofs.«178406_j5162550689850_1_alg».proof.Proof.RefRun
import proofs.«178406_j5162550689850_1_alg».proof.Proof.Node
import Idealize.ShloMosaic.Lib.Pipeline.Value
import Idealize.ShloMosaic.Lib.ValueLayout

noncomputable section

open scoped BigOperators

namespace Cert.ReferenceIdeal.Hand

open Idealize.ShloMosaic Idealize.ShloMosaic.ValueIdx Cert.Node

/-! ## Layout forms the reference uses, read at an entry -/

/-- A bias vector made a row [1, N] and repeated down M rows reads, at (r, c), the vector's entry c. -/
theorem bias_rows {M N : Nat} (b : (⟨1, ![N]⟩ : Shape).Idx → EReal)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (c : Fin N) :
    broadcastInDim ⟨2, ![M, N]⟩ ![0, 1] h2 (broadcastInDim ⟨2, ![1, N]⟩ ![1] h1 b) (ix2 r c) = b (ix1 c) := by
  rw [broadcastInDim_apply _ h2 _ (ix2 r c) (ix2 (0 : Fin 1) c), broadcastInDim_apply _ h1 b (ix2 (0 : Fin 1) c) (ix1 c)]
  · intro a
    match a with
    | ⟨0, _⟩ =>
      show c.val = if N = 1 then 0 else c.val
      split_ifs with h
      · have := c.isLt; omega
      · rfl
  · intro a
    match a with
    | ⟨0, _⟩ => simp
    | ⟨1, _⟩ =>
      show c.val = if N = 1 then 0 else c.val
      split_ifs with h
      · have := c.isLt; omega
      · rfl

/-- A rank-0 constant repeated over a shape reads the constant's value everywhere. -/
theorem splat_apply {S : Shape} (w : BitVec 32) (e : (⟨0, ![]⟩ : Shape).BroadcastsInDim S (![] : Fin 0 → Fin S.rank))
    (x : (⟨0, ![]⟩ : Shape).Idx → EReal) (j : S.Idx) : broadcastInDim S ![] e x j = x ix0 :=
  broadcastInDim_apply _ e x j ix0 (fun a => a.elim0)

/-- Eight columns concatenated with themselves along the second axis: column `q` of the sixteen is column `q mod 8`. -/
theorem columns_twice (cat : Shape.Concatenates [(⟨2, ![2048, 8]⟩ : Shape), ⟨2, ![2048, 8]⟩] ⟨2, ![2048, 16]⟩ 1)
    (v : (⟨2, ![2048, 8]⟩ : Shape).Idx → EReal) (n : Fin 2048) (q : Fin 16) :
    concatenate ⟨2, ![2048, 16]⟩ 1 [⟨⟨2, ![2048, 8]⟩, v⟩, ⟨⟨2, ![2048, 8]⟩, v⟩] cat (ix2 n q)
      = twice (fun j => v (ix2 n j)) q := by
  refine concatenate_replicate_apply (t := ⟨2, ![2048, 16]⟩) (s₁ := ⟨2, ![2048, 8]⟩) 1 2 v cat rfl (ix2 n q)
    (ix2 n (⟨q.val % 8, Nat.mod_lt _ (by norm_num)⟩ : Fin 8)) rfl fun b hb => ?_
  match b with
  | ⟨0, _⟩ => rfl
  | ⟨1, _⟩ => exact absurd rfl hb

end Cert.ReferenceIdeal.Hand

namespace Cert.ReferenceIdeal.Hand

open Cert.ReferenceIdeal Cert.ReferenceIdeal.Gen Idealize.ShloMosaic Idealize.ShloMosaic.TcCoe Idealize.SL.Sem
open Idealize.ShloMosaic.StableHlo Idealize.ShloMosaic.ValueIdx Cert.Node

/-! ## The operations' composed term, layer by layer -/

/-- The first layer over all nodes. -/
def rConv (a0 : FVec Ideal S128x24x2048 .f32) (a3 : FVec Ideal S3072x8 .f32) (a4 : FVec Ideal S8 .f32) : FVec Ideal S2048x8 .f32 :=
  addf (Host.dotGeneral dot_S2048x3072_S3072x8_S2048x8_1_0_0_1_n_n none
      (transpose S2048x3072 [1, 0] (shapeCast S3072x2048 a0 Facts₀.shapeCasts_S128x24x2048_S3072x2048)
        Facts₀.transposes_S3072x2048_S2048x3072_1_0) a3)
    (broadcastInDim S2048x8 ![0, 1] Facts₀.bcast_S1x8_S2048x8_0_1 (broadcastInDim S1x8 ![1] Facts₀.bcast_S8_S1x8_1 a4))

/-- The hidden layer's pre-activations over the first layer's outputs `cv`. -/
def rHid (cv : FVec Ideal S2048x8 .f32) (a5 : FVec Ideal S16x32 .f32) (a6 : FVec Ideal S32 .f32) : FVec Ideal S2048x32 .f32 :=
  addf (Host.dotGeneral dot_S2048x16_S16x32_S2048x32_1_0_0_1_n_n none
      (concatenate S2048x16 1 [⟨S2048x8, cv⟩, ⟨S2048x8, cv⟩] Facts₀.concatenates_S2048x8_S2048x8_S2048x16_d1) a5)
    (broadcastInDim S2048x32 ![0, 1] Facts₀.bcast_S1x32_S2048x32_0_1 (broadcastInDim S1x32 ![1] Facts₀.bcast_S32_S1x32_1 a6))

/-- The rectifier as the reference spells it. -/
def rAct (y : FVec Ideal S2048x32 .f32) : FVec Ideal S2048x32 .f32 :=
  select (cmpf .oge y (broadcastInDim S2048x32 ![] Facts₀.bcast_S_S2048x32 (constant S_ .f32 0x00000000#32))) y
    (mulf (broadcastInDim S2048x32 ![] Facts₀.bcast_S_S2048x32 (id (constant S_ .f32 0x3C23D70A#32))) y)

/-- The last layer over the activations `h`, viewed [2048] and repeated over [128, 24, 2048]. -/
def rOut (h : FVec Ideal S2048x32 .f32) (a7 : FVec Ideal S32x1 .f32) (a8 : FVec Ideal S1 .f32) : FVec Ideal S128x24x2048 .f32 :=
  broadcastInDim S128x24x2048 ![2] Facts₀.bcast_S2048_S128x24x2048_2
    (shapeCast S2048
      (addf (Host.dotGeneral dot_S2048x32_S32x1_S2048x1_1_0_0_1_n_n none h a7)
        (broadcastInDim S2048x1 ![0, 1] Facts₀.bcast_S1x1_S2048x1_0_1 (broadcastInDim S1x1 ![1] Facts₀.bcast_S1_S1x1_1 a8)))
      Facts₀.shapeCasts_S2048x1_S2048)

/-- The reference's result as one term of its arguments. -/
def refOut (a0 : FVec Ideal S128x24x2048 .f32) (a3 : FVec Ideal S3072x8 .f32) (a4 : FVec Ideal S8 .f32)
    (a5 : FVec Ideal S16x32 .f32) (a6 : FVec Ideal S32 .f32) (a7 : FVec Ideal S32x1 .f32) (a8 : FVec Ideal S1 .f32) :
    FVec Ideal S128x24x2048 .f32 :=
  rOut (rAct (rHid (rConv a0 a3 a4) a5 a6)) a7 a8

set_option maxRecDepth 8192 in
/-- The fold of the operations at the result buffer is that term of the arguments' contents. -/
theorem out_eq (V : Valuation τ sig (Elt Ideal)) :
    after ops V (main_v17 : DevRef τ sig)
      = refOut (V (main_arg0 : DevRef τ sig)) (V (main_arg3 : DevRef τ sig)) (V (main_arg4 : DevRef τ sig))
          (V (main_arg5 : DevRef τ sig)) (V (main_arg6 : DevRef τ sig)) (V (main_arg7 : DevRef τ sig)) (V (main_arg8 : DevRef τ sig)) := by
  simp only [after_cons, after_nil]
  rfl

theorem arg0_eq (V : Valuation τ sig (Elt Ideal)) : after ops V (main_arg0 : DevRef τ sig) = V (main_arg0 : DevRef τ sig) := by
  simp only [after_cons, after_nil]; rfl
theorem arg1_eq (V : Valuation τ sig (Elt Ideal)) : after ops V (main_arg1 : DevRef τ sig) = V (main_arg1 : DevRef τ sig) := by
  simp only [after_cons, after_nil]; rfl
theorem arg2_eq (V : Valuation τ sig (Elt Ideal)) : after ops V (main_arg2 : DevRef τ sig) = V (main_arg2 : DevRef τ sig) := by
  simp only [after_cons, after_nil]; rfl
theorem arg3_eq (V : Valuation τ sig (Elt Ideal)) : after ops V (main_arg3 : DevRef τ sig) = V (main_arg3 : DevRef τ sig) := by
  simp only [after_cons, after_nil]; rfl
theorem arg4_eq (V : Valuation τ sig (Elt Ideal)) : after ops V (main_arg4 : DevRef τ sig) = V (main_arg4 : DevRef τ sig) := by
  simp only [after_cons, after_nil]; rfl
theorem arg5_eq (V : Valuation τ sig (Elt Ideal)) : after ops V (main_arg5 : DevRef τ sig) = V (main_arg5 : DevRef τ sig) := by
  simp only [after_cons, after_nil]; rfl
theorem arg6_eq (V : Valuation τ sig (Elt Ideal)) : after ops V (main_arg6 : DevRef τ sig) = V (main_arg6 : DevRef τ sig) := by
  simp only [after_cons, after_nil]; rfl
theorem arg7_eq (V : Valuation τ sig (Elt Ideal)) : after ops V (main_arg7 : DevRef τ sig) = V (main_arg7 : DevRef τ sig) := by
  simp only [after_cons, after_nil]; rfl
theorem arg8_eq (V : Valuation τ sig (Elt Ideal)) : after ops V (main_arg8 : DevRef τ sig) = V (main_arg8 : DevRef τ sig) := by
  simp only [after_cons, after_nil]; rfl

/-! ## Each layer at a node -/

/-- The first layer at node `n`, output `j`. -/
theorem rConv_apply (a0 : FVec Ideal S128x24x2048 .f32) (a3 : FVec Ideal S3072x8 .f32) (a4 : FVec Ideal S8 .f32)
    (n : Fin 2048) (j : Fin 8) :
    rConv a0 a3 a4 (ix2 n j) = conv a3 (fun j => a4 (ix1 j))
      (fun k => shapeCast S3072x2048 a0 Facts₀.shapeCasts_S128x24x2048_S3072x2048 (ix2 k n)) j := by
  unfold rConv conv
  show FloatOps.dotGeneral (dimsP Facts₀.dot_S2048x3072_S3072x8_S2048x8_1_0_0_1_n_n_wf) none .single
      (transpose S2048x3072 [1, 0] (shapeCast S3072x2048 a0 Facts₀.shapeCasts_S128x24x2048_S3072x2048)
        Facts₀.transposes_S3072x2048_S2048x3072_1_0) a3 (ix2 n j)
    + broadcastInDim S2048x8 ![0, 1] Facts₀.bcast_S1x8_S2048x8_0_1 (broadcastInDim S1x8 ![1] Facts₀.bcast_S8_S1x8_1 a4) (ix2 n j) = _
  rw [dotP_apply, bias_rows]
  refine congrArg (· + a4 (ix1 j)) (Finset.sum_congr rfl fun k _ => ?_)
  rw [transpose_ix2_apply, mul_comm]

/-- The hidden layer at node `n`, unit `p`. -/
theorem rHid_apply (cv : FVec Ideal S2048x8 .f32) (a5 : FVec Ideal S16x32 .f32) (a6 : FVec Ideal S32 .f32)
    (n : Fin 2048) (p : Fin 32) :
    rHid cv a5 a6 (ix2 n p) = hid a5 (fun p => a6 (ix1 p)) (fun j => cv (ix2 n j)) p := by
  unfold rHid hid
  show FloatOps.dotGeneral (dimsP Facts₀.dot_S2048x16_S16x32_S2048x32_1_0_0_1_n_n_wf) none .single
      (concatenate S2048x16 1 [⟨S2048x8, cv⟩, ⟨S2048x8, cv⟩] Facts₀.concatenates_S2048x8_S2048x8_S2048x16_d1) a5 (ix2 n p)
    + broadcastInDim S2048x32 ![0, 1] Facts₀.bcast_S1x32_S2048x32_0_1 (broadcastInDim S1x32 ![1] Facts₀.bcast_S32_S1x32_1 a6) (ix2 n p) = _
  rw [dotP_apply, bias_rows]
  refine congrArg (· + a6 (ix1 p)) (Finset.sum_congr rfl fun q _ => ?_)
  rw [columns_twice, mul_comm]

/-- The rectifier at an entry: the slope on the left is the slope on the right. -/
theorem rAct_apply (y : FVec Ideal S2048x32 .f32) (i : S2048x32.Idx) : rAct y i = leaky (y i) := by
  unfold rAct leaky
  show Scalar.select (FloatOps.cmpf .oge (y i)
        (broadcastInDim S2048x32 ![] Facts₀.bcast_S_S2048x32 (constant (F := Ideal) S_ .f32 0x00000000#32) i)) (y i)
      (FloatOps.mulf (broadcastInDim S2048x32 ![] Facts₀.bcast_S_S2048x32 (constant (F := Ideal) S_ .f32 0x3C23D70A#32) i) (y i)) = _
  rw [splat_apply 0x00000000#32, splat_apply 0x3C23D70A#32]
  show Scalar.select _ (y i) (Ideal.ofBits .f32 0x3C23D70A#32 * y i) = Scalar.select _ (y i) (y i * Ideal.ofBits .f32 0x3C23D70A#32)
  rw [mul_comm]
  rfl

/-- The last layer, viewed and repeated, at (b, l, n). -/
theorem rOut_apply (h : FVec Ideal S2048x32 .f32) (a7 : FVec Ideal S32x1 .f32) (a8 : FVec Ideal S1 .f32)
    (b : Fin 128) (l : Fin 24) (n : Fin 2048) :
    rOut h a7 a8 (ix3 b l n) = (∑ p : Fin 32, a7 (ix2 p (0 : Fin 1)) * h (ix2 n p)) + a8 (ix1 (0 : Fin 1)) := by
  unfold rOut
  rw [broadcastInDim_apply _ Facts₀.bcast_S2048_S128x24x2048_2 _ (ix3 b l n) (ix1 n) (fun a => by
    match a with
    | ⟨0, _⟩ => rfl)]
  rw [shapeCast_apply _ Facts₀.shapeCasts_S2048x1_S2048 (ix1 n) (ix2 n (0 : Fin 1)) (by
    rw [Shape.rowMajor_val_two, Shape.rowMajor_val_one]
    show n.val * 1 + 0 = n.val
    omega)]
  show FloatOps.dotGeneral (dimsP Facts₀.dot_S2048x32_S32x1_S2048x1_1_0_0_1_n_n_wf) none .single h a7 (ix2 n (0 : Fin 1))
    + broadcastInDim S2048x1 ![0, 1] Facts₀.bcast_S1x1_S2048x1_0_1 (broadcastInDim S1x1 ![1] Facts₀.bcast_S1_S1x1_1 a8) (ix2 n (0 : Fin 1)) = _
  rw [dotP_apply, bias_rows]
  refine congrArg (· + a8 (ix1 (0 : Fin 1))) (Finset.sum_congr rfl fun p _ => ?_)
  rw [mul_comm]

/-- THE REFERENCE'S RESULT IS THE NETWORK'S RESULT. -/
theorem refOut_eq (a0 : FVec Ideal S128x24x2048 .f32) (a3 : FVec Ideal S3072x8 .f32) (a4 : FVec Ideal S8 .f32)
    (a5 : FVec Ideal S16x32 .f32) (a6 : FVec Ideal S32 .f32) (a7 : FVec Ideal S32x1 .f32) (a8 : FVec Ideal S1 .f32) :
    refOut a0 a3 a4 a5 a6 a7 a8 = G Facts₀.shapeCasts_S128x24x2048_S3072x2048 a0 a3 a4 a5 a6 a7 a8 := by
  funext i
  obtain ⟨b, l, n, rfl⟩ : ∃ (b : Fin 128) (l : Fin 24) (n : Fin 2048), i = ix3 b l n := ⟨i 0, i 1, i 2, eq_ix3 i⟩
  unfold refOut G node
  rw [rOut_apply]
  refine congrArg (· + a8 (ix1 (0 : Fin 1))) (Finset.sum_congr rfl fun p _ => ?_)
  rw [rAct_apply, rHid_apply]
  refine congrArg (fun cv => a7 (ix2 p (0 : Fin 1)) * leaky (hid a5 (fun p => a6 (ix1 p)) cv p)) (funext fun j => ?_)
  exact rConv_apply a0 a3 a4 n j

/-- The reference's run, read: the result array at the network's result, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17)
        = G Facts₀.shapeCasts_S128x24x2048_S3072x2048 (m ((c.tc : Thread nD τ).loc main_arg0)) (m ((c.tc : Thread nD τ).loc main_arg3))
            (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
      ⟨((h c main_v17).trans (out_eq (launchContents m c))).trans (refOut_eq _ _ _ _ _ _ _),
        (h c main_arg0).trans (arg0_eq (launchContents m c)), (h c main_arg1).trans (arg1_eq (launchContents m c)),
        (h c main_arg2).trans (arg2_eq (launchContents m c)), (h c main_arg3).trans (arg3_eq (launchContents m c)),
        (h c main_arg4).trans (arg4_eq (launchContents m c)), (h c main_arg5).trans (arg5_eq (launchContents m c)),
        (h c main_arg6).trans (arg6_eq (launchContents m c)), (h c main_arg7).trans (arg7_eq (launchContents m c)),
        (h c main_arg8).trans (arg8_eq (launchContents m c))⟩)
    (run_main (F := Ideal) m ρ)

end Cert.ReferenceIdeal.Hand

end
-- ==== Proof.lean ====
/-
  The kernel against its reference, over the extended reals.

  Both programs apply one small network to each of 2048 graph nodes and repeat the node's scalar over a [128, 24] grid:
  a linear layer from the node's 3072 features to eight outputs, those eight stacked twice and sent through a 16 → 32
  layer with a leaky rectifier (slope the f32 word of 0.01), and a 32 → 1 layer. The kernel keeps the node axis last and
  walks it in four slabs of 512 columns, contracting the first axis of weights and data; the reference transposes the
  data to node-major and uses row-major products. Entry by entry both are the same sums with the two factors of each
  product exchanged, and the rectifier's slope multiplied on the other side: the commutativity of the extended reals'
  product is the one law needed, so the inputs' finiteness is never used. The edge list and edge weights are read by
  neither program.

  The kernel's and its idealization's frames are the generated ones; the reference's frame is its run with the result
  dropped; the ideal pass rewrote nothing, so there is nothing to preserve.
-/
import proofs.«178406_j5162550689850_1_alg».proof.Defs
import proofs.«178406_j5162550689850_1_alg».proof.Proof.Gen.Kernel
import proofs.«178406_j5162550689850_1_alg».proof.Proof.Gen.Kernel.Skeleton
import proofs.«178406_j5162550689850_1_alg».proof.Proof.Gen.Kernel.Launch
import proofs.«178406_j5162550689850_1_alg».proof.Proof.Gen.Kernel.Points
import proofs.«178406_j5162550689850_1_alg».proof.Proof.Gen.Kernel.Frame
import proofs.«178406_j5162550689850_1_alg».proof.Proof.Gen.KernelIdeal
import proofs.«178406_j5162550689850_1_alg».proof.Proof.Gen.KernelIdeal.Skeleton
import proofs.«178406_j5162550689850_1_alg».proof.Proof.Gen.KernelIdeal.Launch
import proofs.«178406_j5162550689850_1_alg».proof.Proof.Gen.KernelIdeal.Points
import proofs.«178406_j5162550689850_1_alg».proof.Proof.Gen.KernelIdeal.Frame
import proofs.«178406_j5162550689850_1_alg».proof.Proof.Gen.ReferenceIdeal
import proofs.«178406_j5162550689850_1_alg».proof.Proof.Gen.Pre_finite_inputs
import proofs.«178406_j5162550689850_1_alg».proof.Proof.KernelValue
import proofs.«178406_j5162550689850_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Hand.run m ρ)

/-- The ideal pass rewrote no operation. -/
theorem preserves : Cert.preserves_Kernel_KernelIdeal := trivial

/-- Both result arrays end at the network's result of arguments that agree. -/
theorem algebraic : Cert.algebraic_KernelIdeal_ReferenceIdeal := by
  intro m ρ m' ρ' _ hagree
  refine ⟨fun c => Cert.KernelIdeal.Hand.Gm m c, Cert.KernelIdeal.Hand.run m ρ, ?_⟩
  refine (θ_run Cert.ReferenceIdeal.defs _ _).mono (fun r h c => ⟨(h c).1.trans ?_, (h c).2⟩)
    (Cert.ReferenceIdeal.Hand.run m' ρ')
  obtain ⟨e0, e1, e2, e3, e4, e5, e6, e7, e8⟩ := hagree c
  rw [e0, e3, e4, e5, e6, e7, e8]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
